-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x512 : Shape := ⟨2, ![10000, 512]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S10000x10000 .f32) (main_arg1 : FVec F S10000x512 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S10000x10000 : Shape := ⟨2, ![10000, 10000]⟩
abbrev S10000x512 : Shape := ⟨2, ![10000, 512]⟩
abbrev S200x10000 : Shape := ⟨2, ![200, 10000]⟩
abbrev S200x512 : Shape := ⟨2, ![200, 512]⟩

abbrev nBuf : Space → Nat
  | .hbm => 3
  | .vmem => 5
  | .smem => 0
  | _ => 0

abbrev bufTy : (tb : Table) → Fin (tcTables nBuf tb) → BufTy
  | .hbm, ⟨0, _⟩ => ⟨S10000x10000, .f32⟩
  | .hbm, ⟨1, _⟩ => ⟨S10000x512, .f32⟩
  | .hbm, ⟨2, _⟩ => ⟨S10000x512, .f32⟩
  | .local _ .vmem, ⟨0, _⟩ => ⟨S200x10000, .f32⟩
  | .local _ .vmem, ⟨1, _⟩ => ⟨S200x10000, .f32⟩
  | .local _ .vmem, ⟨2, _⟩ => ⟨S10000x512, .f32⟩
  | .local _ .vmem, ⟨3, _⟩ => ⟨S200x512, .f32⟩
  | .local _ .vmem, ⟨4, _⟩ => ⟨S200x512, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x512_S10000x512_0_0 : ∀ a, (![0, 0] : Fin 2 → Nat) a + S10000x512.size a ≤ S10000x512.size a
  h_S10000x512 : 0 < S10000x512.numel
  inb_S200x512_S200x512_0_0 : ∀ a, (![0, 0] : Fin 2 → Nat) a + S200x512.size a ≤ S200x512.size a
  h_S200x512 : 0 < S200x512.numel
  dot_S200x10000_S10000x512_S200x512_1_0_0_1_n_n_wf : DotDims.WF S200x10000 S10000x512 S200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S10000x512.size a
  hwx0_1 : ∀ i : grid0.Coords, EltTy.bits .f32 = 32 ∨ (Rect.block (s := S10000x512) S10000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x512.size a ≤ S10000x512.size a
  hwx0_2 : ∀ i : grid0.Coords, EltTy.bits .f32 = 32 ∨ (Rect.block (s := S10000x512) S200x512.size (cc0_transform_2 i) (hinb0_2 i)).WholeWords (EltTy.packing .f32)

variable [Facts₀]

def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x512 : Shape := ⟨2, ![10000, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x512, .f32⟩
  | .hbm, ⟨2, _⟩ => ⟨S10000x512, .f32⟩
  | .hbm, ⟨3, _⟩ => ⟨S_, .f32⟩
  | .hbm, ⟨4, _⟩ => ⟨S10000x512, .f32⟩
  | .hbm, ⟨5, _⟩ => ⟨S10000x512, .i1⟩
  | .hbm, ⟨6, _⟩ => ⟨S_, .f32⟩
  | .hbm, ⟨7, _⟩ => ⟨S10000x512, .f32⟩
  | .hbm, ⟨8, _⟩ => ⟨S10000x512, .f32⟩
  | .hbm, ⟨9, _⟩ => ⟨S10000x512, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S10000x512 : S_.BroadcastsInDim S10000x512 (![] : Fin 0 → Fin S10000x512.rank)
  dot_S10000x10000_S10000x512_S10000x512_1_0_0_1_n_n_wf : DotDims.WF S10000x10000 S10000x512 S10000x512 [1] [0] [0] [1] [] []

variable [Facts₀]

def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Layer.lean ====
/-
  The layer both programs compute, as ONE function of the two argument arrays.

  For an adjacency array `A` of shape [10000, 10000] and an embedding array `E` of shape [10000, 512], entry `(r, o)` of
  the result is the LeakyReLU of slope 1/2 of the matrix product's entry `d = ∑ k, A (r, k) · E (k, o)`: `d` itself where
  `d ≥ 0`, and `(1/2) · d` elsewhere. The threshold and the slope are kept as the two float words both programs print
  (`0x00000000` and `0x3F000000`), the comparison and the choice as the scalar operations both programs apply, so neither
  word is ever evaluated: the two programs meet on one and the same term, and the only mathematics between them is that
  a product accumulated into zero, and a contraction over one axis, are the same sum over `k`. No law of the extended
  reals that could fail at an infinity is used.
-/
import Idealize.ShloMosaic.PureOps.Ideal
import Idealize.ShloMosaic.Lib.ValueIdx

noncomputable section

open scoped BigOperators
open Idealize.ShloMosaic Idealize.ShloMosaic.ValueIdx

namespace Cert.Gcn

/-- LeakyReLU of slope 1/2 on one extended real: `d` where `d ≥ 0`, else `(1/2) · d`. -/
def leakyHalf (d : Ideal .f32) : Ideal .f32 :=
  Scalar.select (FloatOps.cmpf (F := Ideal) (φ := .f32) .oge d (FloatOps.ofBits (F := Ideal) .f32 0x00000000#32)) d
    (FloatOps.mulf (F := Ideal) (φ := .f32) (FloatOps.ofBits (F := Ideal) .f32 0x3F000000#32) d)

/-- Entry `(r, o)` of the product of an `[R, 10000]` array with a `[10000, 512]` array: the sum over the shared axis.
    Stated for any number of rows `R`, so that it reads a 200-row block of the adjacency array as well as the whole of it. -/
def rowDot {R : ℕ} (A : FVec Ideal ⟨2, ![R, 10000]⟩ .f32) (E : FVec Ideal ⟨2, ![10000, 512]⟩ .f32) (r : Fin R) (o : Fin 512) :
    Ideal .f32 :=
  ∑ k : Fin 10000, A (ix2 r k) * E (ix2 k o)

/-- The layer: entry `i = (r, o)` is the LeakyReLU of row `r` of `A` against column `o` of `E`. -/
def layer (A : FVec Ideal ⟨2, ![10000, 10000]⟩ .f32) (E : FVec Ideal ⟨2, ![10000, 512]⟩ .f32) :
    FVec Ideal ⟨2, ![10000, 512]⟩ .f32 :=
  fun i => leakyHalf (rowDot A E (i 0) (i 1))

end Cert.Gcn

end
-- ==== Proof.BlockLayer.lean ====
/-
  One grid point of the kernel computes 200 rows of the layer.

  The body loads a 200-row block `X` of the adjacency array and the whole embedding array `E`, narrows both to bf16 (the
  identity on ideal values), multiplies them into a zero accumulator and applies `where(d ≥ 0, d, 0.5 · d)`. So entry
  `(p, o)` of what it stores is the LeakyReLU of `∑ k, X (p, k) · E (k, o)`: the product into zero is the plain sum over
  the contracted axis (the general lemma of LibPlainMatmul, fed the four facts that say which axes this kernel's
  dimension numbers contract and keep), and everything after the product acts entry by entry.
-/
import proofs.«174745_g85667417686476_cont_9to1_m_276_2_alg».proof.Proof.Gen.KernelIdeal.Skeleton
import proofs.«174745_g85667417686476_cont_9to1_m_276_2_alg».proof.Proof.LibPlainMatmul
import proofs.«174745_g85667417686476_cont_9to1_m_276_2_alg».proof.Proof.Layer

noncomputable section

open scoped BigOperators
open Idealize.ShloMosaic Idealize.ShloMosaic.ValueIdx

namespace Cert.Gcn.Block

open Cert.KernelIdeal Cert.KernelIdeal.Gen

/-! ## The product's dimension numbers: rows of the left operand, columns of the right, one shared axis -/

/-- The left operand is read at the output's row, -/
theorem left_row (i : S200x512.Idx) (q : dot_S200x10000_S10000x512_S200x512_1_0_0_1_n_n.contr.Idx) :
    (dot_S200x10000_S10000x512_S200x512_1_0_0_1_n_n.lhsIdx i q 0).val = (i 0).val := by
  unfold DotDims.lhsIdx
  rw [dif_neg (show ¬(0 : Fin S200x10000.rank) ∈ dot_S200x10000_S10000x512_S200x512_1_0_0_1_n_n.lhsBatch by decide), dif_pos (show (0 : Fin S200x10000.rank) ∈ dot_S200x10000_S10000x512_S200x512_1_0_0_1_n_n.lhsNonContracting by decide)]
  rfl
/-- and at the contraction's coordinate along its axis 1; -/
theorem left_shared (i : S200x512.Idx) (q : dot_S200x10000_S10000x512_S200x512_1_0_0_1_n_n.contr.Idx) :
    (dot_S200x10000_S10000x512_S200x512_1_0_0_1_n_n.lhsIdx i q 1).val = (q ⟨0, by decide⟩).val :=
  dot_S200x10000_S10000x512_S200x512_1_0_0_1_n_n.lhsIdx_val_of_single rfl i q
/-- the right operand at the contraction's coordinate along its axis 0, -/
theorem right_shared (i : S200x512.Idx) (q : dot_S200x10000_S10000x512_S200x512_1_0_0_1_n_n.contr.Idx) :
    (dot_S200x10000_S10000x512_S200x512_1_0_0_1_n_n.rhsIdx i q 0).val = (q ⟨0, by decide⟩).val :=
  dot_S200x10000_S10000x512_S200x512_1_0_0_1_n_n.rhsIdx_val_of_single rfl i q
/-- and at the output's column. -/
theorem right_col (i : S200x512.Idx) (q : dot_S200x10000_S10000x512_S200x512_1_0_0_1_n_n.contr.Idx) :
    (dot_S200x10000_S10000x512_S200x512_1_0_0_1_n_n.rhsIdx i q 1).val = (i 1).val := by
  unfold DotDims.rhsIdx
  rw [dif_neg (show ¬(1 : Fin S10000x512.rank) ∈ dot_S200x10000_S10000x512_S200x512_1_0_0_1_n_n.rhsBatch by decide), dif_pos (show (1 : Fin S10000x512.rank) ∈ dot_S200x10000_S10000x512_S200x512_1_0_0_1_n_n.rhsNonContracting by decide)]
  rfl

/-! ## The body's value at an index -/

/-- The narrowed operands' product into zero, at `(p, o)`, is row `p` of the block against column `o` of the embeddings:
    narrowing a float's format changes no ideal value. -/
theorem product_at (X : FVec Ideal S200x10000 .f32) (E : FVec Ideal S10000x512 .f32) (p : Fin 200) (o : Fin 512) :
    (matmul dot_S200x10000_S10000x512_S200x512_1_0_0_1_n_n none (truncf .bf16 X bitsLt_bf16_f32) (truncf .bf16 E bitsLt_bf16_f32)
        (constant S200x512 .f32 0x00000000#32) : FVec Ideal S200x512 .f32) (ix2 p o)
      = rowDot X E p o :=
  Cert.LibPlainMatmul.matmul_zero_apply dot_S200x10000_S10000x512_S200x512_1_0_0_1_n_n none rfl rfl left_row left_shared right_shared right_col
    (truncf .bf16 X bitsLt_bf16_f32) (truncf .bf16 E bitsLt_bf16_f32) p o

/-- What the body stores, at index `j = (p, o)` of the 200-row block: the LeakyReLU of row `p` of the loaded block
    against column `o` of the loaded embeddings. -/
theorem stored_at (X : Vec Ideal S200x10000 .f32) (E : Vec Ideal S10000x512 .f32) (j : S200x512.Idx) :
    k0_pay1 X E j = leakyHalf (rowDot X E (j 0) (j 1)) := by
  obtain ⟨p, o, rfl⟩ : ∃ (p : Fin 200) (o : Fin 512), j = ix2 p o := ⟨j 0, j 1, eq_ix2 j⟩
  unfold k0_pay1
  exact congrArg leakyHalf (product_at X E p o)

end Cert.Gcn.Block

end
-- ==== Proof.ArrayLayer.lean ====
/-
  The kernel's result array is the layer of its two arguments.

  The grid has 50 points. Point `t` stages rows `200·t … 200·t + 199` of the adjacency array (all 10000 columns) and the
  whole embedding array, and writes back rows `200·t … 200·t + 199` of the result (all 512 columns). What it writes at
  `(p, o)` of its block is the LeakyReLU of row `p` of the staged rows against column `o` of the embeddings (BlockLayer),
  and row `p` of the staged rows is row `200·t + p` of the adjacency array: so point `t` writes block `t` of the layer.
  The 50 row blocks cover the result (row `r` lies in block `r / 200`), so the array after the run is the layer.
-/
import proofs.«174745_g85667417686476_cont_9to1_m_276_2_alg».proof.Proof.Gen.KernelIdeal.Value
import proofs.«174745_g85667417686476_cont_9to1_m_276_2_alg».proof.Proof.BlockLayer

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.Gcn.Array

open Cert.KernelIdeal Cert.KernelIdeal.Gen Cert.Gcn.Block

variable (m : (ℓ : Loc nD τ sig) → Buf (Elt Ideal) ℓ) (ρ : Dev nD → PrngReg)

/-- Every load and the store start at the origin of their buffers. -/
theorem origin : (![0, 0] : Fin 2 → Nat) = fun _ => 0 := funext fun a => by fin_cases a <;> rfl

/-- The block indices at grid point `t`, decided over the 50 points: the adjacency rows and the result rows are block `t`
    along axis 0, and nothing else moves. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the layer of the argument arrays. -/
theorem written_block (c : Dev nD) (t : Fin cfg0.N) :
    (dats m 0 c).flushed 2 t
      = ((cfg0.win 2).blk t).view.read (Elt Ideal) (layer (V m c main_arg0) (V m c main_arg1)) := by
  rw [Cert.KernelIdeal.Value.flushed2]
  unfold out0_2
  rw [View.canon_unit_zero origin]
  simp only [View.ld_unit_zero (S := S200x10000) origin, View.ld_unit_zero (S := S10000x512) origin]
  obtain ⟨e00, e01, e10, e11, e20, e21⟩ := block_index t
  funext j
  show k0_pay1 (iblk m c 0 t) (iblk m c 1 t) j
    = layer (V m c main_arg0) (V m c main_arg1) (((cfg0.win 2).blk t).view.emb j)
  refine (stored_at (iblk m c 0 t) (iblk m c 1 t) j).trans ?_
  refine congrArg leakyHalf (Finset.sum_congr rfl fun k _ => ?_)
  -- row `j 0` of the staged rows is row `200·t + j 0` of the adjacency array
  have hA : iblk m c 0 t (ix2 (j 0) k) = V m c main_arg0 (ix2 ((((cfg0.win 2).blk t).view.emb j) 0) k) := by
    show V m c main_arg0 (((cfg0.win 0).blk t).view.emb (ix2 (j 0) k)) = _
    refine congrArg (V m c main_arg0) (funext fun a => Fin.ext ?_)
    match a with
    | ⟨0, _⟩ => show win0_0.index t (0 : Fin 2) * 200 + 1 * (j 0).val = win0_2.index t (0 : Fin 2) * 200 + 1 * (j 0).val; omega
    | ⟨1, _⟩ => show win0_0.index t (1 : Fin 2) * 10000 + 1 * k.val = k.val; omega
  -- the staged embeddings are the embedding array, and column `j 1` of the block is column `j 1` of the result
  have hE : iblk m c 1 t (ix2 k (j 1)) = V m c main_arg1 (ix2 k ((((cfg0.win 2).blk t).view.emb j) 1)) := by
    show V m c main_arg1 (((cfg0.win 1).blk t).view.emb (ix2 k (j 1))) = _
    refine congrArg (V m c main_arg1) (funext fun a => Fin.ext ?_)
    match a with
    | ⟨0, _⟩ => show win0_1.index t (0 : Fin 2) * 10000 + 1 * k.val = k.val; omega
    | ⟨1, _⟩ => show win0_1.index t (1 : Fin 2) * 512 + 1 * (j 1).val = win0_2.index t (1 : Fin 2) * 512 + 1 * (j 1).val; omega
  exact congrArg₂ (· * ·) hA hE

/-- An index of the result is in point `t`'s block iff each coordinate is in the block's range on its axis. -/
theorem mem_block (t : Fin cfg0.N) (i : S10000x512.Idx) :
    i ∈ ((cfg0.win 2).blk t).view.set ↔ ∀ a : Fin 2, win0_2.index t a * S200x512.size a ≤ (i a).val
      ∧ (i a).val < win0_2.index t a * S200x512.size a + S200x512.size a := by
  show i ∈ ((View.whole main_v0).slice (win0_2.rect t)).set ↔ _
  rw [View.set_slice_whole, Rect.mem_set_unit]
  exact Iff.rfl

/-- Every index of the result lies in some point's block: row `r` in block `r / 200`. -/
theorem covered (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  let t : Fin cfg0.N := ⟨(i 0).val / 200, by show (i 0).val / 200 < 50; omega⟩
  have ht : t.val = (i 0).val / 200 := rfl
  obtain ⟨-, -, -, -, e20, e21⟩ := block_index t
  refine ⟨t, flush0_2 t, ?_⟩
  rw [mem_block]
  intro a
  match a with
  | ⟨0, _⟩ => show win0_2.index t (0 : Fin 2) * 200 ≤ (i 0).val ∧ (i 0).val < win0_2.index t (0 : Fin 2) * 200 + 200; omega
  | ⟨1, _⟩ => show win0_2.index t (1 : Fin 2) * 512 ≤ (i 1).val ∧ (i 1).val < win0_2.index t (1 : Fin 2) * 512 + 512; omega

/-- THE ARRAY after the run is the layer of the argument arrays as launched. -/
theorem result_array (c : Dev nD) :
    (dats m 0 c).arrAt 2 cfg0.N
      = layer (m ((c : Thread nD τ).loc main_arg0)) (m ((c : Thread nD τ).loc main_arg1)) :=
  (dats m 0 c).arrAt_eq_of_cover 2 (layer (V m c main_arg0) (V m c main_arg1)) (fun t _ => written_block m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_array m c), (h c).2⟩)
    (Cert.KernelIdeal.Value.run_blocks m ρ)

end Cert.Gcn.Array

end
-- ==== Proof.RefLayer.lean ====
/-
  The reference computes the layer.

  The reference is `where(d ≥ 0, d, 0.5 · d)` of `d = dot_general(A, E)` contracting `A`'s axis 1 with `E`'s axis 0. Read at
  an index `i = (r, o)`, operation by operation: the contraction is `∑ k, A (r, k) · E (k, o)`; each scalar constant,
  broadcast, is that constant at every index; the comparison, the product by the slope and the choice act entry by
  entry. That is the layer's entry `i`, term for term.
-/
import proofs.«174745_g85667417686476_cont_9to1_m_276_2_alg».proof.Proof.Gen.ReferenceIdeal.Read
import proofs.«174745_g85667417686476_cont_9to1_m_276_2_alg».proof.Proof.Layer

noncomputable section

open scoped BigOperators
open Idealize.ShloMosaic Idealize.ShloMosaic.ValueIdx

namespace Cert.Gcn.Ref

open Cert.ReferenceIdeal Cert.ReferenceIdeal.Gen Cert.ReferenceIdeal.Read

/-- The left operand's index of term `k` of entry `i`'s contraction is `(i 0, k)`. -/
theorem left_index (i : S10000x512.Idx) (k : Fin 10000) : lidx_main_v0 i k = ix2 (i 0) k :=
  funext fun a => by match a with | ⟨0, _⟩ => rfl | ⟨1, _⟩ => rfl

/-- The right operand's index of term `k` of entry `i`'s contraction is `(k, i 1)`. -/
theorem right_index (i : S10000x512.Idx) (k : Fin 10000) : ridx_main_v0 i k = ix2 k (i 1) :=
  funext fun a => by match a with | ⟨0, _⟩ => rfl | ⟨1, _⟩ => rfl

/-- The reference's last stage, at the ideal values, is the layer of its two arguments. -/
theorem result_eq_layer (A : FVec Ideal S10000x10000 .f32) (E : FVec Ideal S10000x512 .f32) :
    val_main_v5 (F := Ideal) A E = layer A E := by
  funext i
  rw [val_main_v5_apply, val_main_v2_apply, val_main_v4_apply, val_main_v1_apply, val_main_v3_apply, val_main_cst_apply,
    val_main_cst_0_apply, val_main_v0_apply]
  simp only [left_index, right_index]
  rfl

end Cert.Gcn.Ref

end
-- ==== Proof.lean ====
/-
  A graph-convolution layer, `leaky_relu(adj @ embeds, slope 1/2)`, over adj : f32[10000, 10000] and embeds : f32[10000, 512]:
  a kernel that streams 200-row blocks of `adj` over a grid of 50 points, keeps `embeds` resident, multiplies in bf16 into
  an f32 zero accumulator and fuses the LeakyReLU into the stored block, against the plain `where(d ≥ 0, d, 0.5 · d)` of
  `d = matmul(adj, embeds)`.

  On ideal values narrowing to bf16 is the identity, a product accumulated into zero is the sum over the contracted axis,
  and so is the reference's contraction; the threshold `0` and the slope `1/2` are the same two float words in both
  programs. Hence both compute ONE function of the arguments, `Cert.Gcn.layer` (Proof/Layer.lean): entry `(r, o)` is the
  LeakyReLU of `∑ k, adj (r, k) · embeds (k, o)`. The reference is that function operation by operation
  (Proof/RefLayer.lean); a grid point writes 200 rows of it (Proof/BlockLayer.lean), and the 50 row blocks tile the
  result (Proof/ArrayLayer.lean). No step distributes, cancels or reorders a sum, so finiteness of the inputs is never
  used. The idealization rewrote no operation, so that conjunct is `True`; the three frames are the programs' runs.
-/
import proofs.«174745_g85667417686476_cont_9to1_m_276_2_alg».proof.Defs
import proofs.«174745_g85667417686476_cont_9to1_m_276_2_alg».proof.Proof.Gen.Kernel
import proofs.«174745_g85667417686476_cont_9to1_m_276_2_alg».proof.Proof.Gen.Kernel.Skeleton
import proofs.«174745_g85667417686476_cont_9to1_m_276_2_alg».proof.Proof.Gen.Kernel.Launch
import proofs.«174745_g85667417686476_cont_9to1_m_276_2_alg».proof.Proof.Gen.Kernel.Points
import proofs.«174745_g85667417686476_cont_9to1_m_276_2_alg».proof.Proof.Gen.Kernel.Frame
import proofs.«174745_g85667417686476_cont_9to1_m_276_2_alg».proof.Proof.Gen.KernelIdeal
import proofs.«174745_g85667417686476_cont_9to1_m_276_2_alg».proof.Proof.Gen.KernelIdeal.Skeleton
import proofs.«174745_g85667417686476_cont_9to1_m_276_2_alg».proof.Proof.Gen.KernelIdeal.Launch
import proofs.«174745_g85667417686476_cont_9to1_m_276_2_alg».proof.Proof.Gen.KernelIdeal.Points
import proofs.«174745_g85667417686476_cont_9to1_m_276_2_alg».proof.Proof.Gen.KernelIdeal.Frame
import proofs.«174745_g85667417686476_cont_9to1_m_276_2_alg».proof.Proof.Gen.ReferenceIdeal
import proofs.«174745_g85667417686476_cont_9to1_m_276_2_alg».proof.Proof.Gen.Pre_finite_inputs
import proofs.«174745_g85667417686476_cont_9to1_m_276_2_alg».proof.Proof.Gen.KernelIdeal.Value
import proofs.«174745_g85667417686476_cont_9to1_m_276_2_alg».proof.Proof.Gen.ReferenceIdeal.Run
import proofs.«174745_g85667417686476_cont_9to1_m_276_2_alg».proof.Proof.Gen.ReferenceIdeal.Read
import proofs.«174745_g85667417686476_cont_9to1_m_276_2_alg».proof.Proof.ArrayLayer
import proofs.«174745_g85667417686476_cont_9to1_m_276_2_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on ideal values. -/
theorem frame_kernel_ideal : Cert.frame_KernelIdeal := fun m ρ _ => Cert.KernelIdeal.Gen.frame m ρ

/-- The reference's run, its result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `adj` and `embeds`, the kernel's result array ends at the layer of its arguments
    (ArrayLayer) and the reference's at its last stage, which is the layer of the same arguments (RefLayer). -/
theorem algebraic : Cert.algebraic_KernelIdeal_ReferenceIdeal := by
  intro m ρ m' ρ' _ hagree
  refine ⟨_, Cert.Gcn.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.Gcn.Ref.result_eq_layer _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
